-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S2x65536 : Shape := ⟨2, ![2, 65536]⟩
abbrev S4096 : Shape := ⟨1, ![4096]⟩
abbrev S10 : Shape := ⟨1, ![10]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x256 .f32) (main_arg1 : FVec F S8192x8192 .f32) (main_arg2 : IVec S2x65536 32) (main_arg3 : IVec S4096 32) (main_arg4 : IVec S10 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x256 : Shape := ⟨2, ![8192, 256]⟩
abbrev S8192x8192 : Shape := ⟨2, ![8192, 8192]⟩
abbrev S2x65536 : Shape := ⟨2, ![2, 65536]⟩
abbrev S4096 : Shape := ⟨1, ![4096]⟩
abbrev S10 : Shape := ⟨1, ![10]⟩
abbrev S256x8192 : Shape := ⟨2, ![256, 8192]⟩
abbrev S256x256 : Shape := ⟨2, ![256, 256]⟩
abbrev S256 : Shape := ⟨1, ![256]⟩
abbrev S256x1 : Shape := ⟨2, ![256, 1]⟩
abbrev S_ : Shape := ⟨0, ![]⟩
abbrev S10x1 : Shape := ⟨2, ![10, 1]⟩
abbrev S10x256 : Shape := ⟨2, ![10, 256]⟩
abbrev S8192 : Shape := ⟨1, ![8192]⟩
abbrev S8192x1 : Shape := ⟨2, ![8192, 1]⟩
abbrev S8192x10 : Shape := ⟨2, ![8192, 10]⟩

abbrev nBuf : Space → Nat
  | .hbm => 69
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S2x65536, .i32⟩
  | .hbm, ⟨3, _⟩ => ⟨S4096, .i32⟩
  | .hbm, ⟨4, _⟩ => ⟨S10, .i32⟩
  | .hbm, ⟨5, _⟩ => ⟨S8192x256, .bf16⟩
  | .hbm, ⟨6, _⟩ => ⟨S8192x256, .f32⟩
  | .hbm, ⟨7, _⟩ => ⟨S_, .i32⟩
  | .hbm, ⟨8, _⟩ => ⟨S10, .i32⟩
  | .hbm, ⟨9, _⟩ => ⟨S10, .i1⟩
  | .hbm, ⟨10, _⟩ => ⟨S_, .i32⟩
  | .hbm, ⟨11, _⟩ => ⟨S10, .i32⟩
  | .hbm, ⟨12, _⟩ => ⟨S10, .i32⟩
  | .hbm, ⟨13, _⟩ => ⟨S10, .i32⟩
  | .hbm, ⟨14, _⟩ => ⟨S10x1, .i32⟩
  | .hbm, ⟨15, _⟩ => ⟨S10x256, .f32⟩
  | .hbm, ⟨16, _⟩ => ⟨S8192x256, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x256, .f32⟩
  | .hbm, ⟨25, _⟩ => ⟨S8192x256, .f32⟩
  | .hbm, ⟨26, _⟩ => ⟨S8192x256, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x256, .f32⟩
  | .hbm, ⟨35, _⟩ => ⟨S8192x256, .f32⟩
  | .hbm, ⟨36, _⟩ => ⟨S10x256, .f32⟩
  | .hbm, ⟨37, _⟩ => ⟨S_, .f32⟩
  | .hbm, ⟨38, _⟩ => ⟨S10, .f32⟩
  | .hbm, ⟨39, _⟩ => ⟨S10x1, .f32⟩
  | .hbm, ⟨40, _⟩ => ⟨S10x1, .f32⟩
  | .hbm, ⟨41, _⟩ => ⟨S_, .f32⟩
  | .hbm, ⟨42, _⟩ => ⟨S10x1, .f32⟩
  | .hbm, ⟨43, _⟩ => ⟨S10x1, .f32⟩
  | .hbm, ⟨44, _⟩ => ⟨S10x256, .f32⟩
  | .hbm, ⟨45, _⟩ => ⟨S10x256, .f32⟩
  | .hbm, ⟨46, _⟩ => ⟨S8192x256, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192x10, .f32⟩
  | .hbm, ⟨53, _⟩ => ⟨S_, .f32⟩
  | .hbm, ⟨54, _⟩ => ⟨S8192x10, .f32⟩
  | .hbm, ⟨55, _⟩ => ⟨S8192x10, .f32⟩
  | .hbm, ⟨56, _⟩ => ⟨S8192x10, .f32⟩
  | .hbm, ⟨57, _⟩ => ⟨S8192, .f32⟩
  | .hbm, ⟨58, _⟩ => ⟨S8192, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S8192x256, .bf16⟩
  | .local _ .vmem, ⟨3, _⟩ => ⟨S256x256, .f32⟩
  | .local _ .vmem, ⟨4, _⟩ => ⟨S256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  shapeCasts_S256_S256x1 : S256.ShapeCasts S256x1
  broadcasts_S256x1_S256x8192 : S256x1.Broadcasts S256x8192
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S256x256_S256x256_0_0 : ∀ a, (![0, 0] : Fin 2 → Nat) a + S256x256.size a ≤ S256x256.size a
  h_S256x256 : 0 < S256x256.numel
  bcast_S_S10 : S_.BroadcastsInDim S10 (![] : Fin 0 → Fin S10.rank)
  bcast_S10_S10x1_0 : S10.BroadcastsInDim S10x1 (![0] : Fin 1 → Fin S10x1.rank)
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  reducesTo_S10x256_S10_d1 : S10x256.ReducesTo [1] S10
  bcast_S_S10x1 : S_.BroadcastsInDim S10x1 (![] : Fin 0 → Fin S10x1.rank)
  bcast_S10x1_S10x256_0_1 : S10x1.BroadcastsInDim S10x256 (![0, 1] : Fin 2 → Fin S10x256.rank)
  bcast_S_S8192 : S_.BroadcastsInDim S8192 (![] : Fin 0 → Fin S8192.rank)
  bcast_S_S8192x10 : S_.BroadcastsInDim S8192x10 (![] : Fin 0 → Fin S8192x10.rank)
  reducesTo_S8192x10_S8192_d1 : S8192x10.ReducesTo [1] S8192
  reducesTo_S8192_S_d0 : S8192.ReducesTo [0] S_
  dot_S256x8192_S8192x256_S256x256_1_0_0_1_n_n_wf : DotDims.WF S256x8192 S8192x256 S256x256 [1] [0] [0] [1] [] []
  gather_S8192x256_S10x1_S10x256_1_0_n_n_0_1_1256_wf : GatherDims.WF S8192x256 S10x1 S10x256 [1] [0] [] [0] [] 1 ![1, 256]
  dot_S8192x256_S10x256_S8192x10_1_1_0_0_n_n_wf : DotDims.WF S8192x256 S10x256 S8192x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S8192x256.size a
  hwx0_2 : ∀ i : grid0.Coords, EltTy.bits .f32 = 32 ∨ (Rect.block (s := S8192x256) S256x256.size (cc0_transform_2 i) (hinb0_2 i)).WholeWords (EltTy.packing .f32)

variable [Facts₀]

def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf
def gather_S8192x256_S10x1_S10x256_1_0_n_n_0_1_1256 : GatherDims S8192x256 S10x1 S10x256 where
  offsetDims := [1]
  collapsedSliceDims := [0]
  operandBatchingDims := []
  startIndicesBatchingDims := []
  startIndexMap := [0]
  indexVectorDim := 1
  sliceSizes := ![1, 256]
  wf := gather_S8192x256_S10x1_S10x256_1_0_n_n_0_1_1256_wf
def dot_S8192x256_S10x256_S8192x10_1_1_0_0_n_n : DotDims S8192x256 S10x256 S8192x10 where
  lhsContracting := [1]
  rhsContracting := [1]
  lhsNonContracting := [0]
  rhsNonContracting := [0]
  lhsBatch := []
  rhsBatch := []
  wf := dot_S8192x256_S10x256_S8192x10_1_1_0_0_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192x8192 : Shape := ⟨2, ![8192, 8192]⟩
abbrev S2x65536 : Shape := ⟨2, ![2, 65536]⟩
abbrev S4096 : Shape := ⟨1, ![4096]⟩
abbrev S10 : Shape := ⟨1, ![10]⟩
abbrev S_ : Shape := ⟨0, ![]⟩
abbrev S8192 : Shape := ⟨1, ![8192]⟩
abbrev S8192x1 : Shape := ⟨2, ![8192, 1]⟩
abbrev S10x1 : Shape := ⟨2, ![10, 1]⟩
abbrev S10x256 : Shape := ⟨2, ![10, 256]⟩
abbrev S8192x10 : Shape := ⟨2, ![8192, 10]⟩

abbrev nBuf : Space → Nat
  | .hbm => 118
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S2x65536, .i32⟩
  | .hbm, ⟨3, _⟩ => ⟨S4096, .i32⟩
  | .hbm, ⟨4, _⟩ => ⟨S10, .i32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x8192, .f32⟩
  | .hbm, ⟨54, _⟩ => ⟨S8192x8192, .f32⟩
  | .hbm, ⟨55, _⟩ => ⟨S8192x256, .f32⟩
  | .hbm, ⟨56, _⟩ => ⟨S_, .i32⟩
  | .hbm, ⟨57, _⟩ => ⟨S10, .i32⟩
  | .hbm, ⟨58, _⟩ => ⟨S10, .i1⟩
  | .hbm, ⟨59, _⟩ => ⟨S_, .i32⟩
  | .hbm, ⟨60, _⟩ => ⟨S10, .i32⟩
  | .hbm, ⟨61, _⟩ => ⟨S10, .i32⟩
  | .hbm, ⟨62, _⟩ => ⟨S10, .i32⟩
  | .hbm, ⟨63, _⟩ => ⟨S10x1, .i32⟩
  | .hbm, ⟨64, _⟩ => ⟨S10x256, .f32⟩
  | .hbm, ⟨65, _⟩ => ⟨S8192x256, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S8192x256, .f32⟩
  | .hbm, ⟨74, _⟩ => ⟨S8192x256, .f32⟩
  | .hbm, ⟨75, _⟩ => ⟨S8192x256, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S8192x256, .f32⟩
  | .hbm, ⟨84, _⟩ => ⟨S8192x256, .f32⟩
  | .hbm, ⟨85, _⟩ => ⟨S10x256, .f32⟩
  | .hbm, ⟨86, _⟩ => ⟨S_, .f32⟩
  | .hbm, ⟨87, _⟩ => ⟨S10, .f32⟩
  | .hbm, ⟨88, _⟩ => ⟨S10x1, .f32⟩
  | .hbm, ⟨89, _⟩ => ⟨S10x1, .f32⟩
  | .hbm, ⟨90, _⟩ => ⟨S_, .f32⟩
  | .hbm, ⟨91, _⟩ => ⟨S10x1, .f32⟩
  | .hbm, ⟨92, _⟩ => ⟨S10x1, .f32⟩
  | .hbm, ⟨93, _⟩ => ⟨S10x256, .f32⟩
  | .hbm, ⟨94, _⟩ => ⟨S10x256, .f32⟩
  | .hbm, ⟨95, _⟩ => ⟨S8192x256, .f32⟩
  | .hbm, ⟨96, _⟩ => ⟨S_, .f32⟩
  | .hbm, ⟨97, _⟩ => ⟨S8192, .f32⟩
  | .hbm, ⟨98, _⟩ => ⟨S_, .f32⟩
  | .hbm, ⟨99, _⟩ => ⟨S8192, .f32⟩
  | .hbm, ⟨100, _⟩ => ⟨S8192, .f32⟩
  | .hbm, ⟨101, _⟩ => ⟨S8192x10, .f32⟩
  | .hbm, ⟨102, _⟩ => ⟨S_, .f32⟩
  | .hbm, ⟨103, _⟩ => ⟨S8192x10, .f32⟩
  | .hbm, ⟨104, _⟩ => ⟨S8192x10, .f32⟩
  | .hbm, ⟨105, _⟩ => ⟨S8192x10, .f32⟩
  | .hbm, ⟨106, _⟩ => ⟨S8192, .f32⟩
  | .hbm, ⟨107, _⟩ => ⟨S8192, .f32⟩
  | .hbm, ⟨108, _⟩ => ⟨S_, .f32⟩
  | .hbm, ⟨109, _⟩ => ⟨S8192, .f32⟩
  | .hbm, ⟨110, _⟩ => ⟨S8192, .f32⟩
  | .hbm, ⟨111, _⟩ => ⟨S8192, .f32⟩
  | .hbm, ⟨112, _⟩ => ⟨S8192, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c : Ref sig .tc := ⟨.hbm, 56, rfl⟩
abbrev main_v41 : Ref sig .tc := ⟨.hbm, 57, rfl⟩
abbrev main_v42 : Ref sig .tc := ⟨.hbm, 58, rfl⟩
abbrev main_c_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_15 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_16 : Ref sig .tc := ⟨.hbm, 96, rfl⟩
abbrev main_v73 : Ref sig .tc := ⟨.hbm, 97, rfl⟩
abbrev main_cst_17 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_18 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_19 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_20 : Ref sig .tc := ⟨.hbm, 113, rfl⟩
abbrev main_v86 : Ref sig .tc := ⟨.hbm, 114, rfl⟩
abbrev main_cst_21 : Ref sig .tc := ⟨.hbm, 115, rfl⟩
abbrev main_v87 : Ref sig .tc := ⟨.hbm, 116, rfl⟩
abbrev main_v88 : Ref sig .tc := ⟨.hbm, 117, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S10 : S_.BroadcastsInDim S10 (![] : Fin 0 → Fin S10.rank)
  bcast_S10_S10x1_0 : S10.BroadcastsInDim S10x1 (![0] : Fin 1 → Fin S10x1.rank)
  reducesTo_S8192x256_S8192_d1 : S8192x256.ReducesTo [1] S8192
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  reducesTo_S10x256_S10_d1 : S10x256.ReducesTo [1] S10
  bcast_S_S10x1 : S_.BroadcastsInDim S10x1 (![] : Fin 0 → Fin S10x1.rank)
  bcast_S10x1_S10x256_0_1 : S10x1.BroadcastsInDim S10x256 (![0, 1] : Fin 2 → Fin S10x256.rank)
  bcast_S_S8192 : S_.BroadcastsInDim S8192 (![] : Fin 0 → Fin S8192.rank)
  bcast_S_S8192x10 : S_.BroadcastsInDim S8192x10 (![] : Fin 0 → Fin S8192x10.rank)
  reducesTo_S8192x10_S8192_d1 : S8192x10.ReducesTo [1] S8192
  reducesTo_S8192_S_d0 : S8192.ReducesTo [0] S_
  dot_S8192x8192_S8192x256_S8192x256_1_0_0_1_n_n_wf : DotDims.WF S8192x8192 S8192x256 S8192x256 [1] [0] [0] [1] [] []
  gather_S8192x256_S10x1_S10x256_1_0_n_n_0_1_1256_wf : GatherDims.WF S8192x256 S10x1 S10x256 [1] [0] [] [0] [] 1 ![1, 256]
  dot_S8192x256_S10x256_S8192x10_1_1_0_0_n_n_wf : DotDims.WF S8192x256 S10x256 S8192x10 [1] [1] [0] [0] [] []

variable [Facts₀]

def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def gather_S8192x256_S10x1_S10x256_1_0_n_n_0_1_1256 : GatherDims S8192x256 S10x1 S10x256 where
  offsetDims := [1]
  collapsedSliceDims := [0]
  operandBatchingDims := []
  startIndicesBatchingDims := []
  startIndexMap := [0]
  indexVectorDim := 1
  sliceSizes := ![1, 256]
  wf := gather_S8192x256_S10x1_S10x256_1_0_n_n_0_1_1256_wf
def dot_S8192x256_S10x256_S8192x10_1_1_0_0_n_n : DotDims S8192x256 S10x256 S8192x10 where
  lhsContracting := [1]
  rhsContracting := [1]
  lhsNonContracting := [0]
  rhsNonContracting := [0]
  lhsBatch := []
  rhsBatch := []
  wf := dot_S8192x256_S10x256_S8192x10_1_1_0_0_n_n_wf

class Facts : Prop extends Facts₀ where

variable [Facts]
-- ==== Proof.LibKeepdims.lean ====
/-
  Keepdims column forms and row-sum normalisation, read at an index (extended reals, the ideal instance).

  A row sum kept as a column — `[a] → [a, 1]` by a shape cast (a kernel) or by a `broadcast_in_dim` along axis 0 (the
  host) — and that column laid back over the columns of an `[a, b]` matrix — by a vector broadcast (a kernel) or a
  `broadcast_in_dim` along axes 0 and 1 (the host) — read, at `(i, j)`, the vector's entry `i`. With them, "divide every
  entry of a matrix by the sum of its row" is read at `(r, k)` as `x (r, k) / ∑ k', x (r, k')` in both spellings, and a plain
  `m × k` by `k × n` product accumulated into a zero splat (a kernel) or with no accumulator (the host) as
  `∑ c, A (a, c) * B (c, b)`.
-/
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember

noncomputable section

namespace Cert.LibKeepdims

open Idealize.ShloMosaic Idealize.ShloMosaic.ValueIdx

variable {α : Type}

/-- Over a rank-2 shape reduced along axis 1, the source index above row `r` with coordinate `k` on the dropped axis is `(r, k)`. -/
theorem lift_ix1 {a b : ℕ} (h : (⟨2, ![a, b]⟩ : Shape).Reduces [(1 : Fin 2)] ⟨1, ![a]⟩) (r : Fin a) (k : Fin b) :
    h.lift (ix1 r) k = ix2 r k :=
  funext fun c => Fin.ext (match c with | ⟨0, _⟩ => rfl | ⟨1, _⟩ => rfl)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over the columns of `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `broadcast_in_dim` of an `[a]` vector along axis 0 of `[a, 1]` reads, at `(i, u)`, the vector at `i`. -/
theorem broadcastInDim_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- The host's `broadcast_in_dim` of a column `[a, 1]` along axes 0 and 1 of `[a, b]` reads, at `(p, c)`, the column at row `p`. -/
theorem broadcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (v : (⟨2, ![a, 1]⟩ : Shape).Idx → α)
    (p : Fin a) (c : Fin b) : broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else ((ix2 p c : (⟨2, ![a, b]⟩ : Shape).Idx) (dims 0)).val
    rw [hd0]
    split
    · have := p.isLt; omega
    · rfl
  | ⟨1, _⟩ => rfl

/-! ## Every entry divided by the sum of its row -/

/-- A kernel's spelling: the lane sum over axis 1 (accumulator the neutral zero), cast to a column, broadcast back over the
    columns, and the quotient — at `(r, k)` it is `y (r, k) / ∑ k', y (r, k')`. -/
theorem divRowSum_kernel_apply {a b : ℕ} (y : FVec Ideal ⟨2, ![a, b]⟩ .f32)
    (h : (⟨2, ![a, b]⟩ : Shape).Reduces [(1 : Fin 2)] ⟨1, ![a]⟩) (hφ : FKind.Formats .f32)
    (hacc : (0x00000000#32 : BitVec (FTy.bits .f32)) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    divf y (broadcastTo ⟨2, ![a, b]⟩ (shapeCast ⟨2, ![a, 1]⟩ (multiReduction .add [(1 : Fin 2)] ⟨1, ![a]⟩ y 0x00000000#32 h hφ hacc) hc) hb) (ix2 r k)
      = Ideal.div (y (ix2 r k)) (∑ k' : Fin b, y (ix2 r k')) := by
  refine congrArg (Ideal.div (y (ix2 r k))) ?_
  refine (broadcastTo_a1_ab_apply _ hb r k).trans ?_
  refine (shapeCast_a_a1_apply _ hc r 0).trans ?_
  refine (Ideal.multiReduction_add_single y _ h hφ hacc (ix1 r)).trans ?_
  exact Finset.sum_congr rfl fun k' _ => congrArg y (lift_ix1 h r k')

/-- The host's spelling: `stablehlo.reduce` with add over axis 1 from an initial zero, `broadcast_in_dim` to a column and then
    over the matrix, and `stablehlo.divide` — the same quotient at `(r, k)`. -/
theorem divRowSum_host_apply {a b : ℕ} {u : Shape} (y : FVec Ideal ⟨2, ![a, b]⟩ .f32)
    (h' : (⟨2, ![a, b]⟩ : Shape).ReducesTo [(1 : Fin 2)] ⟨1, ![a]⟩) (h : (⟨2, ![a, b]⟩ : Shape).Reduces [(1 : Fin 2)] ⟨1, ![a]⟩)
    (hu : 0 < u.numel)
    (d1 : Fin 1 → Fin 2) (hd1 : d1 0 = 0) (hb1 : (⟨1, ![a]⟩ : Shape).BroadcastsInDim ⟨2, ![a, 1]⟩ d1)
    (d2 : Fin 2 → Fin 2) (hd20 : d2 0 = 0) (hd21 : d2 1 = 1) (hb2 : (⟨2, ![a, 1]⟩ : Shape).BroadcastsInDim ⟨2, ![a, b]⟩ d2)
    (r : Fin a) (k : Fin b) :
    Host.divf y (broadcastInDim ⟨2, ![a, b]⟩ d2 hb2 (broadcastInDim ⟨2, ![a, 1]⟩ d1 hb1
        (Host.reduceAdd y (constant (F := Ideal) u .f32 0x00000000#32) h' hu))) (ix2 r k)
      = Ideal.div (y (ix2 r k)) (∑ k' : Fin b, y (ix2 r k')) := by
  refine congrArg (Ideal.div (y (ix2 r k))) ?_
  refine (broadcastInDim_a1_ab_apply d2 hd20 hd21 hb2 _ r k).trans ?_
  refine (broadcastInDim_a_a1_apply d1 hd1 hb1 _ r 0).trans ?_
  show Ideal.hostReduceAdd h' y (Ideal.ofBits .f32 0x00000000#32) (ix1 r) = _
  rw [Ideal.hostReduceAdd_single h' h, Ideal.ofBits_zero_f32, zero_add]
  exact Finset.sum_congr rfl fun k' _ => congrArg y (lift_ix1 h r k')

/-! ## A plain matrix product at an index -/

/-- The host's `dot_general` with the plain dimension numbers (contract axis 1 of the left with axis 0 of the right), read at `(p, q)`. -/
theorem dotGeneral_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    Host.dotGeneral d prec A B (ix2 p q) = ∑ c : Fin k, A (ix2 p c) * B (ix2 c q) := by
  subst hd
  exact StackMember.dotGeneral_plain_apply prec A B p q

/-- A kernel's `tpu.matmul` with the plain dimension numbers into a zero splat, read at `(p, q)`: the same sum. -/
theorem matmul_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    matmul d prec A B (constant ⟨2, ![m, n]⟩ .f32 0x00000000#32) (ix2 p q) = ∑ c : Fin k, A (ix2 p c) * B (ix2 c q) := by
  rw [matmul_zero_eq_dotGeneral]
  exact dotGeneral_plain_apply d hd prec A B p q

end Cert.LibKeepdims

end
-- ==== Proof.Diffuse.lean ====
/-
  The diffused features, as one function of the two float arguments over the extended reals.

  A row of the diffusion matrix is normalised by its sum, `row k / ∑ k', row k'` (the quotient of the ideal instance, total on
  the extended reals, whatever it gives at a zero or infinite sum), ten times over; entry `(i, j)` of the result is the sum over
  `c` of the ten-times-normalised row `i` at `c` times `z (c, j)`. Normalising is ROW-LOCAL: row `i` of the normalised matrix depends
  on row `i` of the matrix alone, so a block of whole rows normalised by itself holds exactly the rows the whole matrix
  normalised holds there. That is all that relates the kernel's 256-row blocks to the reference's 8192-row matrix; no law of
  real arithmetic beyond the order of a finite sum is involved, and finiteness of the inputs is never used.
-/
import Idealize.ShloMosaic.PureOps.Ideal
import Idealize.ShloMosaic.Lib.ValueIdx

noncomputable section

namespace Cert.Diffuse

open Idealize.ShloMosaic Idealize.ShloMosaic.ValueIdx

/-- A row divided, entry by entry, by the sum of its entries. -/
def normRow {K : ℕ} (row : Fin K → EReal) : Fin K → EReal := fun k => Ideal.div (row k) (∑ k' : Fin K, row k')

/-- Row `r` of an `[R, K]` matrix. -/
def rowOf {R K : ℕ} (y : (⟨2, ![R, K]⟩ : Shape).Idx → EReal) (r : Fin R) : Fin K → EReal := fun k => y (ix2 r k)

/-- Entry `(i, j)` of the diffused features: row `i` of the matrix normalised ten times, against column `j` of `z`. -/
def diffuseAt (dm : (⟨2, ![8192, 8192]⟩ : Shape).Idx → EReal) (z : (⟨2, ![8192, 256]⟩ : Shape).Idx → EReal)
    (i : Fin 8192) (j : Fin 256) : EReal :=
  ∑ c : Fin 8192, (normRow^[10] (rowOf dm i)) c * z (ix2 c j)

/-- The diffused features as an array. -/
def diffuse (dm : (⟨2, ![8192, 8192]⟩ : Shape).Idx → EReal) (z : (⟨2, ![8192, 256]⟩ : Shape).Idx → EReal) :
    (⟨2, ![8192, 256]⟩ : Shape).Idx → EReal :=
  fun ij => diffuseAt dm z (ij 0) (ij 1)

theorem diffuse_apply (dm : (⟨2, ![8192, 8192]⟩ : Shape).Idx → EReal) (z : (⟨2, ![8192, 256]⟩ : Shape).Idx → EReal)
    (i : Fin 8192) (j : Fin 256) : diffuse dm z (ix2 i j) = diffuseAt dm z i j := rfl

/-- If one step of a matrix-to-matrix map normalises every row, `n` steps normalise every row `n` times. -/
theorem rowOf_iterate {R K : ℕ} (step : ((⟨2, ![R, K]⟩ : Shape).Idx → EReal) → ((⟨2, ![R, K]⟩ : Shape).Idx → EReal))
    (hstep : ∀ y r, rowOf (step y) r = normRow (rowOf y r)) (n : ℕ) (y : (⟨2, ![R, K]⟩ : Shape).Idx → EReal) (r : Fin R) :
    rowOf (step^[n] y) r = normRow^[n] (rowOf y r) := by
  induction n with
  | zero => rfl
  | succ n ih => rw [Function.iterate_succ_apply', Function.iterate_succ_apply', hstep, ih]

end Cert.Diffuse

end
-- ==== Proof.KernelBody.lean ====
/-
  The kernel body's arithmetic at the ideal instance, read row by row.

  The body loads a block of 256 whole rows of the diffusion matrix, ten times divides every entry by the sum of its row (a
  lane sum over axis 1, kept as a column and broadcast back), narrows the result to bf16 (the identity on extended reals),
  and multiplies it into the whole of `z` on the matrix unit from a zero accumulator. So entry `(r, j)` of what it stores is the
  sum over `c` of row `r` of the block, normalised ten times, at `c`, times `z (c, j)`.
-/
import proofs.«144436_j27504970563864_1_alg».proof.Proof.Gen.KernelIdeal.Skeleton
import proofs.«144436_j27504970563864_1_alg».proof.Proof.LibKeepdims
import proofs.«144436_j27504970563864_1_alg».proof.Proof.Diffuse

noncomputable section

namespace Cert.Diffuse.Body

open Cert.KernelIdeal Cert.KernelIdeal.Gen Idealize.ShloMosaic Idealize.ShloMosaic.TcCoe Idealize.ShloMosaic.ValueIdx Cert.LibKeepdims

/-- One normalisation of the block, in the body's spelling. -/
def blockStep (y : FVec Ideal S256x8192 .f32) : FVec Ideal S256x8192 .f32 :=
  divf y (broadcastTo S256x8192 (shapeCast S256x1 (multiReduction .add [1] S256 y 0x00000000#32 reduces_S256x8192_S256 (.inl rfl) rfl)
    shapeCasts_S256_S256x1) broadcasts_S256x1_S256x8192)

/-- It normalises every row of the block. -/
theorem rowOf_blockStep (y : FVec Ideal S256x8192 .f32) (r : Fin 256) : rowOf (blockStep y) r = normRow (rowOf y r) :=
  funext fun k => divRowSum_kernel_apply y reduces_S256x8192_S256 (.inl rfl) rfl shapeCasts_S256_S256x1 broadcasts_S256x1_S256x8192 r k

/-- The left factor the body hands the matrix unit is the block normalised ten times (narrowed to bf16). -/
theorem lhs_eq (x : Vec Ideal S256x8192 .f32) : k0_pay2 (F := Ideal) x = truncf .bf16 (blockStep^[10] x) bitsLt_bf16_f32 := rfl

/-- Read at `(r, k)`: row `r` of the block normalised ten times, at `k`. -/
theorem lhs_apply (x : Vec Ideal S256x8192 .f32) (r : Fin 256) (k : Fin 8192) :
    k0_pay2 (F := Ideal) x (ix2 r k) = (normRow^[10] (rowOf x r)) k := by
  rw [lhs_eq]
  exact congrFun (rowOf_iterate blockStep rowOf_blockStep 10 x r) k

/-- The right factor is the loaded `z` itself. -/
theorem rhs_eq (x : Vec Ideal S8192x256 .bf16) : k0_pay3 (F := Ideal) x = x :=
  shapeCast_self x shapeCasts_S8192x256_S8192x256

/-- The stored product at `(r, j)`. -/
theorem product_apply (x0 : Vec Ideal S256x8192 .f32) (x1 : Vec Ideal S8192x256 .bf16) (r : Fin 256) (j : Fin 256) :
    k0_pay1 (F := Ideal) (k0_pay2 x0) (k0_pay3 x1) (constant S256x256 .f32 0x00000000#32) (ix2 r j)
      = ∑ c : Fin 8192, (normRow^[10] (rowOf x0 r)) c * x1 (ix2 c j) := by
  rw [rhs_eq]
  refine (matmul_plain_apply dot_S256x8192_S8192x256_S256x256_1_0_0_1_n_n rfl none (k0_pay2 (F := Ideal) x0) x1 r j).trans ?_
  exact Finset.sum_congr rfl fun c _ => by rw [lhs_apply]

end Cert.Diffuse.Body

end
-- ==== Proof.Tail.lean ====
/-
  What both programs do with the diffused features: the InfoNCE loss of the node features `z`, the negative-sample indices and
  the diffused ("positive") features `P`, as ONE function. Anchors, positives and the gathered negatives are L2-normalised row by
  row (norm clamped below at 1e-12); the positive similarity is the row inner product of anchor and positive over the
  temperature; the negative similarities are the exponentials of anchor · negative over the temperature; the loss is minus the
  mean over the nodes of log (exp pos / (exp pos + ∑ neg)). Both programs end in exactly these operations, each applied to its own
  diffused features, so the two losses are this one function at two arguments `P`, and they agree wherever the two `P` agree.
-/
import proofs.«144436_j27504970563864_1_alg».proof.Proof.Gen.KernelIdeal

noncomputable section

namespace Cert.Diffuse

open Cert.KernelIdeal Cert.KernelIdeal.Gen Idealize.ShloMosaic Idealize.ShloMosaic.TcCoe

variable {F : FTy → Type} [FloatOps F]

/-- The negative samples: the rows of `z` the indices pick (a negative index wrapped by the row count first). -/
def t_v8 (z : (⟨S8192x256, .f32⟩ : BufTy).Contents (Elt F)) (idx : (⟨S10, .i32⟩ : BufTy).Contents (Elt F))
    (P : (⟨S8192x256, .f32⟩ : BufTy).Contents (Elt F)) : (⟨S10x256, .f32⟩ : BufTy).Contents (Elt F) :=
  Host.gather gather_S8192x256_S10x1_S10x256_1_0_n_n_0_1_1256 z (broadcastInDim S10x1 ![0] bcast_S10_S10x1_0 (select (cmpi .slt idx (broadcastInDim S10 ![] bcast_S_S10 (constantI S_ 32 0#32))) (addi idx (broadcastInDim S10 ![] bcast_S_S10 (constantI S_ 32 8192#32))) idx))

/-- The anchors: every row of `z` divided by its Euclidean norm clamped below at 1e-12. -/
def t_v16 (z : (⟨S8192x256, .f32⟩ : BufTy).Contents (Elt F)) (idx : (⟨S10, .i32⟩ : BufTy).Contents (Elt F))
    (P : (⟨S8192x256, .f32⟩ : BufTy).Contents (Elt F)) : (⟨S8192x256, .f32⟩ : BufTy).Contents (Elt F) :=
  Host.divf z (broadcastInDim S8192x256 ![0, 1] bcast_S8192x1_S8192x256_0_1 (maximumf (Host.sqrt (broadcastInDim S8192x1 ![0] bcast_S8192_S8192x1_0 (Host.reduceAdd (mulf z z) (constant S_ .f32 0x00000000#32) reducesTo_S8192x256_S8192_d1 h_S_))) (broadcastInDim S8192x1 ![] bcast_S_S8192x1 (constant S_ .f32 0x2B8CBCCC#32))))

/-- The positive similarity of each node: the inner product of its anchor with its normalised diffused feature, over the temperature 0.2. -/
def t_v36 (z : (⟨S8192x256, .f32⟩ : BufTy).Contents (Elt F)) (idx : (⟨S10, .i32⟩ : BufTy).Contents (Elt F))
    (P : (⟨S8192x256, .f32⟩ : BufTy).Contents (Elt F)) : (⟨S8192, .f32⟩ : BufTy).Contents (Elt F) :=
  Host.divf (Host.reduceAdd (mulf (t_v16 z idx P) (Host.divf P (broadcastInDim S8192x256 ![0, 1] bcast_S8192x1_S8192x256_0_1 (maximumf (Host.sqrt (broadcastInDim S8192x1 ![0] bcast_S8192_S8192x1_0 (Host.reduceAdd (mulf P P) (constant S_ .f32 0x00000000#32) reducesTo_S8192x256_S8192_d1 h_S_))) (broadcastInDim S8192x1 ![] bcast_S_S8192x1 (constant S_ .f32 0x2B8CBCCC#32)))))) (constant S_ .f32 0x00000000#32) reducesTo_S8192x256_S8192_d1 h_S_) (broadcastInDim S8192 ![] bcast_S_S8192 (constant S_ .f32 0x3E4CCCCD#32))

/-- The loss as a function of the node features, the negative-sample indices and the diffused features. -/
def lossTail (z : (⟨S8192x256, .f32⟩ : BufTy).Contents (Elt F)) (idx : (⟨S10, .i32⟩ : BufTy).Contents (Elt F))
    (P : (⟨S8192x256, .f32⟩ : BufTy).Contents (Elt F)) : (⟨S_, .f32⟩ : BufTy).Contents (Elt F) :=
  Host.negf (Host.divf (Host.reduceAdd (Host.log (Host.divf (Host.exp (t_v36 z idx P)) (addf (Host.exp (t_v36 z idx P)) (Host.reduceAdd (Host.exp (Host.divf (Host.dotGeneral dot_S8192x256_S10x256_S8192x10_1_1_0_0_n_n none (t_v16 z idx P) (Host.divf (t_v8 z idx P) (broadcastInDim S10x256 ![0, 1] bcast_S10x1_S10x256_0_1 (maximumf (Host.sqrt (broadcastInDim S10x1 ![0] bcast_S10_S10x1_0 (Host.reduceAdd (mulf (t_v8 z idx P) (t_v8 z idx P)) (constant S_ .f32 0x00000000#32) reducesTo_S10x256_S10_d1 h_S_))) (broadcastInDim S10x1 ![] bcast_S_S10x1 (constant S_ .f32 0x2B8CBCCC#32)))))) (broadcastInDim S8192x10 ![] bcast_S_S8192x10 (constant S_ .f32 0x3E4CCCCD#32)))) (constant S_ .f32 0x00000000#32) reducesTo_S8192x10_S8192_d1 h_S_)))) (constant S_ .f32 0x00000000#32) reducesTo_S8192_S_d0 h_S_) (constant S_ .f32 0x46000000#32))

end Cert.Diffuse

end
-- ==== Proof.KernelValue.lean ====
/-
  The kernel's value: its run read back as the loss of `z`, the indices and the diffused features.

  Grid point `t` (of 32) stages rows `256 t … 256 t + 255` of the diffusion matrix and the whole of `z` (narrowed to bf16 by the
  host before the call: the identity on extended reals), and writes back rows `256 t … 256 t + 255` of the output. Row
  normalisation is row-local, so what it writes back is those rows of the diffused features of the whole matrix; the 32 row
  blocks cover the output, which therefore ends holding the diffused features. The host operations after the call are the loss.
-/
import proofs.«144436_j27504970563864_1_alg».proof.Proof.Gen.KernelIdeal.Frame
import proofs.«144436_j27504970563864_1_alg».proof.Proof.KernelBody
import proofs.«144436_j27504970563864_1_alg».proof.Proof.Tail
import Idealize.ShloMosaic.Lib.Pipeline.Value
import Idealize.ShloMosaic.Lib.StableHlo.Run
import Idealize.ShloMosaic.Lib.Tactic

set_option maxRecDepth 16384

noncomputable section

namespace Cert.Diffuse.Kernel

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays as the region finds them, and the windows' blocks -/

/-- The right operand's array is `z` narrowed to bf16 by the one host operation before the call. -/
theorem z_found (c : Dev nD) :
    V m c main_v0 = (truncf .bf16 (m ((c : Thread nD τ).loc main_arg0)) bitsLt_bf16_f32 : FVec Ideal S8192x256 .bf16) := by
  show StableHlo.after hostOps0 (fun b => m (c, b)) (Proc.devRef .tc main_v0) = _
  after_results

/-- The printed index maps over the grid: the matrix window and the output window sit at row block `t`, column block 0; the
    `z` window does not move. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The matrix window's block at point `t`, as a block of 256 whole rows. -/
abbrev dmBlk (c : Dev nD) (t : Fin cfg0.N) : Vec Ideal S256x8192 .f32 := iblk m c 0 t
/-- The `z` window's block at point `t`. -/
abbrev zBlk (c : Dev nD) (t : Fin cfg0.N) : Vec Ideal S8192x256 .bf16 := iblk m c 1 t

/-- Entry `(r, k)` of the matrix block at point `t` is entry `(256 t + r, k)` of the matrix. -/
theorem dmBlk_apply (c : Dev nD) (t : Fin cfg0.N) (r : Fin 256) (k : Fin 8192) (i : Fin 8192) (hi : i.val = 256 * t.val + r.val) :
    dmBlk m c t (ix2 r k) = (m ((c : Thread nD τ).loc main_arg1) : S8192x8192.Idx → EReal) (ix2 i k) := by
  obtain ⟨e0, e1, -⟩ := idx_facts t
  unfold dmBlk iblk
  rw [View.read_apply]
  show V m c main_arg1 _ = m (c.tc.loc main_arg1) _
  rw [V_main_arg1]
  congr 1
  funext a
  apply Fin.ext
  match a with
  | ⟨0, _⟩ => show win0_0.index t (0 : Fin 2) * 256 + 1 * r.val = i.val; rw [e0, hi]; omega
  | ⟨1, _⟩ => show win0_0.index t (1 : Fin 2) * 8192 + 1 * k.val = k.val; rw [e1]; omega

/-- The `z` block at any point is `z`. -/
theorem zBlk_apply (c : Dev nD) (t : Fin cfg0.N) (k : Fin 8192) (j : Fin 256) :
    zBlk m c t (ix2 k j) = (m ((c : Thread nD τ).loc main_arg0) : S8192x256.Idx → EReal) (ix2 k j) := by
  obtain ⟨-, -, e2, e3, -⟩ := idx_facts t
  unfold zBlk iblk
  rw [View.read_apply]
  show V m c main_v0 _ = m (c.tc.loc main_arg0) _
  rw [z_found]
  show m (c.tc.loc main_arg0) _ = m (c.tc.loc main_arg0) _
  congr 1
  funext a
  apply Fin.ext
  match a with
  | ⟨0, _⟩ => show win0_1.index t (0 : Fin 2) * 8192 + 1 * k.val = k.val; rw [e2]; omega
  | ⟨1, _⟩ => show win0_1.index t (1 : Fin 2) * 256 + 1 * j.val = j.val; rw [e3]; omega

/-! ## What a point writes back -/

/-- The body's stored product at `(r, j)` of point `t` is entry `(256 t + r, j)` of the diffused features of the whole matrix:
    row `r` of the block is row `256 t + r` of the matrix, and normalising a row looks at that row only. -/
theorem block_value (c : Dev nD) (t : Fin cfg0.N) (r j : Fin 256) (i : Fin 8192) (hi : i.val = 256 * t.val + r.val) :
    k0_pay1 (F := Ideal) (k0_pay2 (dmBlk m c t)) (k0_pay3 (zBlk m c t)) (constant S256x256 .f32 0x00000000#32) (ix2 r j)
      = diffuseAt (m ((c : Thread nD τ).loc main_arg1)) (m ((c : Thread nD τ).loc main_arg0)) i j := by
  refine (Body.product_apply (dmBlk m c t) (zBlk m c t) r j).trans ?_
  unfold diffuseAt
  have hrow : rowOf (dmBlk m c t) r = rowOf (m ((c : Thread nD τ).loc main_arg1) : S8192x8192.Idx → EReal) i :=
    funext fun k => dmBlk_apply m c t r k i hi
  rw [hrow]
  exact Finset.sum_congr rfl fun k _ => by rw [zBlk_apply]

/-- WHAT POINT `t` WRITES BACK is block `t` of the diffused features. -/
theorem flushed_eq (c : Dev nD) (t : Fin cfg0.N) :
    (dats m 0 c).flushed 2 t = ((cfg0.win 2).blk t).view.read (Elt Ideal)
      (diffuse (m ((c : Thread nD τ).loc main_arg1)) (m ((c : Thread nD τ).loc main_arg0))) := by
  show (cfg0.win 2).cut (grid0.coords t) ((dats m 0 c).after 2 t) = _
  rw [after0_2]
  unfold out0_2
  rw [View.canon_unit_zero hz]
  simp only [View.ld_unit_zero (S := S256x8192) hz, View.ld_unit_zero (S := S8192x256) hz]
  obtain ⟨-, -, -, -, e4, e5⟩ := idx_facts t
  have hN : cfg0.N = 32 := N_0
  have ht : t.val < 32 := hN ▸ t.isLt
  funext y
  obtain ⟨r, j, rfl⟩ : ∃ (r : Fin 256) (j : Fin 256), y = ix2 r j := ⟨y 0, y 1, eq_ix2 (n0 := 256) (n1 := 256) y⟩
  show k0_pay1 (F := Ideal) (k0_pay2 (dmBlk m c t)) (k0_pay3 (zBlk m c t)) (constant S256x256 .f32 0x00000000#32) (ix2 r j)
    = diffuse (m ((c : Thread nD τ).loc main_arg1)) (m ((c : Thread nD τ).loc main_arg0)) (((cfg0.win 2).blk t).view.emb (ix2 r j))
  have he : ((cfg0.win 2).blk t).view.emb (ix2 r j) = (ix2 (⟨256 * t.val + r.val, by have := r.isLt; omega⟩ : Fin 8192) j : S8192x256.Idx) := by
    funext a
    apply Fin.ext
    match a with
    | ⟨0, _⟩ => show win0_2.index t (0 : Fin 2) * 256 + 1 * r.val = 256 * t.val + r.val; rw [e4]; omega
    | ⟨1, _⟩ => show win0_2.index t (1 : Fin 2) * 256 + 1 * j.val = j.val; rw [e5]; omega
  rw [he, diffuse_apply]
  exact block_value m c t r j _ rfl

/-! ## The output array after the run -/

/-- An index of the output is in point `t`'s block iff each coordinate is in the block's range on its axis. -/
theorem mem_blk (t : Fin cfg0.N) (i : S8192x256.Idx) :
    i ∈ ((cfg0.win 2).blk t).view.set ↔ ∀ a : Fin 2, win0_2.index t a * S256x256.size a ≤ (i a).val ∧ (i a).val < win0_2.index t a * S256x256.size a + S256x256.size a := by
  show i ∈ ((View.whole main_v1).slice (win0_2.rect t)).set ↔ _
  rw [View.set_slice_whole, Rect.mem_set_unit]
  exact Iff.rfl

/-- The 32 row blocks cover the output, so it ends holding the diffused features. -/
theorem final (c : Dev nD) : (dats m 0 c).arrAt 2 cfg0.N
    = diffuse (m ((c : Thread nD τ).loc main_arg1)) (m ((c : Thread nD τ).loc main_arg0)) :=
  (dats m 0 c).arrAt_eq_of_cover 2 _ (fun t _ => flushed_eq m c t) fun i => by
    have hi0 : ((i : S8192x256.Idx) 0).val < 8192 := ((i : S8192x256.Idx) 0).isLt
    have hi1 : ((i : S8192x256.Idx) 1).val < 256 := ((i : S8192x256.Idx) 1).isLt
    have hN : cfg0.N = 32 := N_0
    refine ⟨⟨((i : S8192x256.Idx) 0).val / 256, by rw [hN]; omega⟩, flush0_2 _, ?_⟩
    obtain ⟨-, -, -, -, e4, e5⟩ := idx_facts ⟨((i : S8192x256.Idx) 0).val / 256, by rw [hN]; omega⟩
    rw [mem_blk]
    intro a
    match a with
    | ⟨0, _⟩ =>
      show win0_2.index _ (0 : Fin 2) * 256 ≤ ((i : S8192x256.Idx) 0).val ∧ ((i : S8192x256.Idx) 0).val < win0_2.index _ (0 : Fin 2) * 256 + 256
      rw [e4]
      show ((i : S8192x256.Idx) 0).val / 256 * 256 ≤ _ ∧ _ < ((i : S8192x256.Idx) 0).val / 256 * 256 + 256
      omega
    | ⟨1, _⟩ =>
      show win0_2.index _ (1 : Fin 2) * 256 ≤ ((i : S8192x256.Idx) 1).val ∧ ((i : S8192x256.Idx) 1).val < win0_2.index _ (1 : Fin 2) * 256 + 256
      rw [e5]
      omega

/-! ## The host operations after the call -/

/-- From any buffer contents, the operations after the call leave in the result buffer the loss of what the contents hold of
    `z`, of the indices and of the call's output. -/
theorem tail_reads (W : Valuation τ sig (Elt Ideal)) :
    StableHlo.after hostOps1 W (Proc.devRef .tc main_v49)
      = lossTail (F := Ideal) (W (Proc.devRef .tc main_arg0)) (W (Proc.devRef .tc main_arg4)) (W (Proc.devRef .tc main_v1)) := by
  after_results_simp <;> rfl

/-- The buffer contents when the call returns: the arrays as the run leaves them, everything else as the call found it. -/
abbrev afterCall (c : Dev nD) : Valuation τ sig (Elt Ideal) :=
  Pipeline.withArrays spec0 c (V0 m c) fun w => (dats m 0 c).arrAt w cfg0.N

theorem afterCall_z (c : Dev nD) : afterCall m c (Proc.devRef .tc main_arg0) = m ((c : Thread nD τ).loc main_arg0) :=
  (Pipeline.withArrays_of_ne _ c (V0 m c) _ main_arg0 (by exact (by decide : ∀ w, Pipeline.arrRef spec0 w ≠ main_arg0))).trans (V_main_arg0 m c)

theorem afterCall_idx (c : Dev nD) : afterCall m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)

theorem afterCall_out (c : Dev nD) : afterCall m c (Proc.devRef .tc main_v1)
    = diffuse (m ((c : Thread nD τ).loc main_arg1)) (m ((c : Thread nD τ).loc main_arg0)) :=
  (Pipeline.withArrays_arr spec0 launch0.win.arr_inj c _ _ 2).trans (final m c)

/-- The result buffer after the whole program. -/
theorem result_eq (c : Dev nD) : Pipeline.afterTail₀ cfgs (dats m) 0 (V0 m) [hostOps1] c main_v49
    = lossTail (F := Ideal) (m ((c : Thread nD τ).loc main_arg0)) (m ((c : Thread nD τ).loc main_arg4))
        (diffuse (m ((c : Thread nD τ).loc main_arg1)) (m ((c : Thread nD τ).loc main_arg0))) := by
  unfold Pipeline.afterTail₀
  show StableHlo.after hostOps1 (afterCall m c) (Proc.devRef .tc main_v49) = _
  rw [tail_reads, afterCall_z, afterCall_idx, afterCall_out]

/-! ## The run, read -/

/-- Every weakly fair execution of the kernel's program ends with the loss of `z`, the indices and the diffused features in its
    result, and its arguments unchanged. -/
theorem run : θ_run defs (onTc (τ := τ) (main (F := Ideal))) ⟨m, fun _ => 0, ρ⟩ fun r => ∀ c : Dev nD,
      r.2.mem ((c.tc : Thread nD τ).loc main_v49)
          = lossTail (F := Ideal) (m ((c.tc : Thread nD τ).loc main_arg0)) (m ((c.tc : Thread nD τ).loc main_arg4))
              (diffuse (m ((c.tc : Thread nD τ).loc main_arg1)) (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v49 (Pipeline.mem_restRefs_of main_v49 (by decide) (by decide))).trans (result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Diffuse.Kernel

end
-- ==== Proof.RefValue.lean ====
/-
  The reference's value: its run read back as the loss of `z`, the indices and the diffused features.

  The reference divides the whole 8192 × 8192 matrix by its row sums ten times (a host sum over axis 1 from an initial zero,
  broadcast back to the matrix, a host quotient), multiplies the result into `z` by a plain `dot_general`, and then applies the
  loss. Each of the ten steps normalises every row, so row `i` of the matrix it multiplies is row `i` of the argument normalised
  ten times, and the product at `(i, j)` is the sum the specification names.
-/
import proofs.«144436_j27504970563864_1_alg».proof.Proof.Gen.ReferenceIdeal.Run
import proofs.«144436_j27504970563864_1_alg».proof.Proof.LibKeepdims
import proofs.«144436_j27504970563864_1_alg».proof.Proof.Diffuse
import proofs.«144436_j27504970563864_1_alg».proof.Proof.Tail

noncomputable section

namespace Cert.Diffuse.Ref

open Cert.ReferenceIdeal Cert.ReferenceIdeal.Gen Cert.ReferenceIdeal.Value Idealize.ShloMosaic Idealize.ShloMosaic.TcCoe Idealize.SL.Sem
open Idealize.ShloMosaic.StableHlo Idealize.ShloMosaic.ValueIdx Cert.LibKeepdims

/-- One normalisation of the whole matrix, in the host's spelling. -/
def matStep (y : FVec Ideal S8192x8192 .f32) : FVec Ideal S8192x8192 .f32 :=
  Host.divf y (broadcastInDim S8192x8192 ![0, 1] bcast_S8192x1_S8192x8192_0_1 (broadcastInDim S8192x1 ![0] bcast_S8192_S8192x1_0
    (Host.reduceAdd y (constant S_ .f32 0x00000000#32) reducesTo_S8192x8192_S8192_d1 h_S_)))

/-- It normalises every row. -/
theorem rowOf_matStep (y : FVec Ideal S8192x8192 .f32) (r : Fin 8192) : rowOf (matStep y) r = normRow (rowOf y r) :=
  funext fun k => divRowSum_host_apply y reducesTo_S8192x8192_S8192_d1 (by decide) h_S_ ![0] rfl bcast_S8192_S8192x1_0
    ![0, 1] rfl rfl bcast_S8192x1_S8192x8192_0_1 r k

/-! The run's named intermediates are the ten steps, one after the other, and the product. -/
theorem step3 (V0 : Valuation τ sig (Elt Ideal)) : res_main_v3 V0 = matStep (V0 (Proc.devRef .tc main_arg1)) := rfl
theorem step7 (V0 : Valuation τ sig (Elt Ideal)) : res_main_v7 V0 = matStep (res_main_v3 V0) := rfl
theorem step11 (V0 : Valuation τ sig (Elt Ideal)) : res_main_v11 V0 = matStep (res_main_v7 V0) := rfl
theorem step15 (V0 : Valuation τ sig (Elt Ideal)) : res_main_v15 V0 = matStep (res_main_v11 V0) := rfl
theorem step19 (V0 : Valuation τ sig (Elt Ideal)) : res_main_v19 V0 = matStep (res_main_v15 V0) := rfl
theorem step23 (V0 : Valuation τ sig (Elt Ideal)) : res_main_v23 V0 = matStep (res_main_v19 V0) := rfl
theorem step27 (V0 : Valuation τ sig (Elt Ideal)) : res_main_v27 V0 = matStep (res_main_v23 V0) := rfl
theorem step31 (V0 : Valuation τ sig (Elt Ideal)) : res_main_v31 V0 = matStep (res_main_v27 V0) := rfl
theorem step35 (V0 : Valuation τ sig (Elt Ideal)) : res_main_v35 V0 = matStep (res_main_v31 V0) := rfl
theorem product_eq (V0 : Valuation τ sig (Elt Ideal)) : res_main_v40 V0
    = Host.dotGeneral (φ₁ := .f32) (φ₂ := .f32) dot_S8192x8192_S8192x256_S8192x256_1_0_0_1_n_n none (matStep (res_main_v35 V0)) (V0 (Proc.devRef .tc main_arg0)) := rfl

/-- Row `i` of the matrix the reference multiplies into `z` is row `i` of its argument normalised ten times. -/
theorem rows (V0 : Valuation τ sig (Elt Ideal)) (i : Fin 8192) :
    rowOf (matStep (res_main_v35 V0)) i = normRow^[10] (rowOf (V0 (Proc.devRef .tc main_arg1)) i) := by
  rw [rowOf_matStep, step35, rowOf_matStep, step31, rowOf_matStep, step27, rowOf_matStep, step23, rowOf_matStep, step19, rowOf_matStep, step15, rowOf_matStep, step11, rowOf_matStep, step7, rowOf_matStep, step3, rowOf_matStep]
  rfl

/-- The reference's product is the diffused features of its two float arguments. -/
theorem positive_eq (V0 : Valuation τ sig (Elt Ideal)) :
    res_main_v40 V0 = diffuse (V0 (Proc.devRef .tc main_arg1)) (V0 (Proc.devRef .tc main_arg0)) := by
  funext ij
  obtain ⟨i, j, rfl⟩ : ∃ (i : Fin 8192) (j : Fin 256), ij = ix2 i j := ⟨ij 0, ij 1, eq_ix2 ij⟩
  rw [product_eq, diffuse_apply]
  refine (dotGeneral_plain_apply dot_S8192x8192_S8192x256_S8192x256_1_0_0_1_n_n rfl none _ _ i j).trans ?_
  unfold diffuseAt
  exact Finset.sum_congr rfl fun c _ => by rw [← rows V0 i]; rfl

/-- Every weakly fair execution of the reference ends with the loss of `z`, the indices and the diffused features in its result,
    and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88)
          = lossTail (F := Ideal) (m ((c.tc : Thread nD τ).loc main_arg0)) (m ((c.tc : Thread nD τ).loc main_arg4))
              (diffuse (m ((c.tc : Thread nD τ).loc main_arg1)) (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (Eq.trans
      (show _ = lossTail (F := Ideal) (launchContents m c (Proc.devRef .tc main_arg0)) (launchContents m c (Proc.devRef .tc main_arg4))
        (res_main_v40 (launchContents m c)) from rfl)
      (congrArg (lossTail (F := Ideal) _ _) (positive_eq (launchContents m c)))), (h c).2⟩)
    (Cert.ReferenceIdeal.Value.run (F := Ideal) m ρ)

end Cert.Diffuse.Ref

end
-- ==== Proof.lean ====
/-
  The certificate of a fused "row-normalise ten times, then multiply" kernel inside an InfoNCE loss, against its jnp reference.

  THE TWO PROGRAMS. The kernel's program narrows `z` (8192 × 256) to bf16, runs one pallas_call over 32 grid points — point `t`
  loads rows 256 t … 256 t + 255 of the 8192 × 8192 diffusion matrix, ten times divides every entry by the sum of its row,
  narrows to bf16 and multiplies into the whole of `z` on the matrix unit — and applies the loss to the output. The reference
  normalises the whole matrix by its row sums ten times on the host, multiplies it into `z` by one `dot_general`, and applies the
  same loss.

  WHY THEY AGREE AT THE IDEAL INSTANCE. Narrowing a float is the identity on extended reals; a lane sum from the neutral
  accumulator and a host sum from an initial zero are the same finite sum; a matrix-unit product into a zero accumulator and a
  host product are the same finite sum. Dividing a matrix by its row sums is ROW-LOCAL: row `i` of the result is a function of
  row `i` alone (Proof/Diffuse.lean, `normRow`), so ten normalisations of a 256-row block give the same rows as ten
  normalisations of the whole matrix (Proof/KernelBody.lean and Proof/KernelValue.lean for the kernel; Proof/RefValue.lean for
  the reference), and both products are `∑ c, (normRow^[10] (row i)) c * z (c, j)` at `(i, j)`. The 32 row blocks cover the output.
  No identity of real arithmetic is used beyond the order of a finite sum — the quotient is the same total function of the same
  two extended reals on both sides, whatever it is at a zero or infinite row sum — so the precondition is never opened. The loss
  (Proof/Tail.lean) is one function applied by both programs.

  The frames of the two kernel programs are the generated ones; the reference's frame is its generated run with the result
  dropped; the ideal pass rewrote nothing, so `preserves` has nothing to state.
-/
import proofs.«144436_j27504970563864_1_alg».proof.Defs
import proofs.«144436_j27504970563864_1_alg».proof.Proof.Gen.Kernel
import proofs.«144436_j27504970563864_1_alg».proof.Proof.Gen.Kernel.Skeleton
import proofs.«144436_j27504970563864_1_alg».proof.Proof.Gen.Kernel.Launch
import proofs.«144436_j27504970563864_1_alg».proof.Proof.Gen.Kernel.Points
import proofs.«144436_j27504970563864_1_alg».proof.Proof.Gen.Kernel.Frame
import proofs.«144436_j27504970563864_1_alg».proof.Proof.Gen.KernelIdeal
import proofs.«144436_j27504970563864_1_alg».proof.Proof.Gen.KernelIdeal.Skeleton
import proofs.«144436_j27504970563864_1_alg».proof.Proof.Gen.KernelIdeal.Launch
import proofs.«144436_j27504970563864_1_alg».proof.Proof.Gen.KernelIdeal.Points
import proofs.«144436_j27504970563864_1_alg».proof.Proof.Gen.KernelIdeal.Frame
import proofs.«144436_j27504970563864_1_alg».proof.Proof.Gen.ReferenceIdeal
import proofs.«144436_j27504970563864_1_alg».proof.Proof.Gen.ReferenceIdeal.Run
import proofs.«144436_j27504970563864_1_alg».proof.Proof.Gen.Pre_finite_inputs
import proofs.«144436_j27504970563864_1_alg».proof.Proof.KernelValue
import proofs.«144436_j27504970563864_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the loss of `z`, the indices and the diffused features of the matrix and `z`; from memories that agree
    on the arguments these are one value. -/
theorem algebraic : Cert.algebraic_KernelIdeal_ReferenceIdeal := by
  intro m ρ m' ρ' _ hagree
  refine ⟨fun c => Cert.Diffuse.lossTail (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg4))
      (Cert.Diffuse.diffuse (m ((c.tc : Thread Cert.KernelIdeal.nD Cert.KernelIdeal.τ).loc Cert.KernelIdeal.main_arg1))
        (m ((c.tc : Thread Cert.KernelIdeal.nD Cert.KernelIdeal.τ).loc Cert.KernelIdeal.main_arg0))),
    Cert.Diffuse.Kernel.run m ρ, ?_⟩
  refine (θ_run Cert.ReferenceIdeal.defs _ _).mono (fun _ h c => ⟨(h c).1.trans ?_, (h c).2⟩) (Cert.Diffuse.Ref.run m' ρ')
  rw [(hagree c).1, (hagree c).2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
